-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S4096x256 : Shape := ⟨2, ![4096, 256]⟩
abbrev S4096 : Shape := ⟨1, ![4096]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S8192x256 .f32) (main_arg1 : FVec F S4096x256 .f32) (main_arg2 : FVec F S4096 .f32) (main_arg3 : FVec F S4096 .f32) (main_arg4 : FVec F S4096 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_v13 main_v16
-- ==== Kernel.lean ====
abbrev S8192x256 : Shape := ⟨2, ![8192, 256]⟩
abbrev S4096x256 : Shape := ⟨2, ![4096, 256]⟩
abbrev S4096 : Shape := ⟨1, ![4096]⟩
abbrev S1x4096 : Shape := ⟨2, ![1, 4096]⟩
abbrev S8192x4096 : Shape := ⟨2, ![8192, 4096]⟩
abbrev S1024x256 : Shape := ⟨2, ![1024, 256]⟩
abbrev S1x1024 : Shape := ⟨2, ![1, 1024]⟩
abbrev S1024x1024 : Shape := ⟨2, ![1024, 1024]⟩

abbrev nBuf : Space → Nat
  | .hbm => 9
  | .vmem => 12
  | .smem => 0
  | _ => 0

abbrev bufTy : (tb : Table) → Fin (tcTables nBuf tb) → BufTy
  | .hbm, ⟨0, _⟩ => ⟨S8192x256, .f32⟩
  | .hbm, ⟨1, _⟩ => ⟨S4096x256, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S1x4096, .f32⟩
  | .hbm, ⟨6, _⟩ => ⟨S1x4096, .f32⟩
  | .hbm, ⟨7, _⟩ => ⟨S1x4096, .f32⟩
  | .hbm, ⟨8, _⟩ => ⟨S8192x4096, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S4096_S1x4096 : S4096.ShapeCasts S1x4096
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x256.size a
  hwx0_1 : ∀ i : grid0.Coords, EltTy.bits .f32 = 32 ∨ (Rect.block (s := S4096x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x4096.size a
  hwx0_5 : ∀ i : grid0.Coords, EltTy.bits .f32 = 32 ∨ (Rect.block (s := S8192x4096) S1024x1024.size (cc0_transform_5 i) (hinb0_5 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x256 : Shape := ⟨2, ![8192, 256]⟩
abbrev S4096x256 : Shape := ⟨2, ![4096, 256]⟩
abbrev S4096 : Shape := ⟨1, ![4096]⟩
abbrev S8192x4096 : Shape := ⟨2, ![8192, 4096]⟩
abbrev S1x4096 : Shape := ⟨2, ![1, 4096]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S4096x256, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S8192x4096, .f32⟩
  | .hbm, ⟨9, _⟩ => ⟨S1x4096, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S1x4096, .f32⟩
  | .hbm, ⟨18, _⟩ => ⟨S8192x4096, .f32⟩
  | .hbm, ⟨19, _⟩ => ⟨S8192x4096, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  dot_S8192x256_S4096x256_S8192x4096_1_1_0_0_n_n_wf : DotDims.WF S8192x256 S4096x256 S8192x4096 [1] [1] [0] [0] [] []

variable [Facts₀]

def dot_S8192x256_S4096x256_S8192x4096_1_1_0_0_n_n : DotDims S8192x256 S4096x256 S8192x4096 where
  lhsContracting := [1]
  rhsContracting := [1]
  lhsNonContracting := [0]
  rhsNonContracting := [0]
  lhsBatch := []
  rhsBatch := []
  wf := dot_S8192x256_S4096x256_S8192x4096_1_1_0_0_n_n_wf

class Facts : Prop extends Facts₀ where

variable [Facts]
-- ==== Proof.Response.lean ====
/-
  The function both programs compute, stated once over the whole arrays.

  For a batch row `b < 8192` and an output feature `o < 4096`, with `x` the [8192, 256] input, `e` the
  [4096, 256] expansion matrix and `μ`, `σ`, `c` the three per-feature vectors of length 4096:

      s(b, o) = Σ_{k < 256} x[b, k] · e[o, k]          row b of x against row o of e
      z(b, o) = (s(b, o) − μ[o]) / σ[o]                 the extended reals' quotient
      r(b, o) = exp((−½ · z(b, o)) · z(b, o)) · c[o]

  The factor −½ is the binary32 word 0xBF000000 on both sides and is never evaluated. Nothing here
  uses a law that fails at an infinity: the two programs differ only in how the array is cut into
  blocks and in the grouping of the sum over `k`, and both write the product `(−½ · z) · z` in this order.
-/
import Idealize.ShloMosaic.PureOps.Ideal
import Idealize.ShloMosaic.Lib.ValueIdx

noncomputable section

namespace Cert.Rbf

open Idealize.ShloMosaic Idealize.ShloMosaic.ValueIdx

/-- The standardized projection `z(b, o) = (Σ_k x[b, k] · e[o, k] − μ[o]) / σ[o]`. -/
def standardized (x : FVec Ideal ⟨2, ![8192, 256]⟩ .f32) (e : FVec Ideal ⟨2, ![4096, 256]⟩ .f32)
    (μ σ : FVec Ideal ⟨1, ![4096]⟩ .f32) (b : Fin 8192) (o : Fin 4096) : EReal :=
  Ideal.div ((∑ k : Fin 256, x (ix2 b k) * e (ix2 o k)) - μ (ix1 o)) (σ (ix1 o))

/-- The response array `r(b, o) = exp((−½ · z) · z) · c[o]`, index by index. -/
def response (x : FVec Ideal ⟨2, ![8192, 256]⟩ .f32) (e : FVec Ideal ⟨2, ![4096, 256]⟩ .f32)
    (μ σ c : FVec Ideal ⟨1, ![4096]⟩ .f32) : FVec Ideal ⟨2, ![8192, 4096]⟩ .f32 := fun i =>
  Ideal.exp (Ideal.ofBits .f32 0xBF000000#32 * standardized x e μ σ (i 0) (i 1) * standardized x e μ σ (i 0) (i 1))
    * c (ix1 (i 1))

end Cert.Rbf

end
-- ==== Proof.RefResponse.lean ====
/-
  The reference program computes `response`.

  Its fifteen host operations are one contraction of `x` with the expansion matrix over the shared axis of
  length 256, three vectors of length 4096 each stretched first to one row [1, 4096] and then over the
  8192 rows, and elementwise arithmetic. Read at an index (b, o): the contraction is
  Σ_k x[b, k] · e[o, k], each stretched vector is its entry at `o`, and the arithmetic is that of
  `response` in the same order.
-/
import proofs.«114944_j34462817583499_1_alg».proof.Proof.Gen.ReferenceIdeal.Read
import proofs.«114944_j34462817583499_1_alg».proof.Proof.Response

noncomputable section

namespace Cert.Rbf.Reference

open Idealize.ShloMosaic Idealize.ShloMosaic.ValueIdx
open Cert.ReferenceIdeal Cert.ReferenceIdeal.Read

/-- The contraction reads `x` at (b, k) … -/
theorem lhs_at (i : S8192x4096.Idx) (k : Fin 256) : lidx_main_v0 i k = ix2 (i 0) k :=
  funext fun a => by match a with | ⟨0, _⟩ => rfl | ⟨1, _⟩ => rfl

/-- … and the expansion matrix at (o, k). -/
theorem rhs_at (i : S8192x4096.Idx) (k : Fin 256) : ridx_main_v0 i k = ix2 (i 1) k :=
  funext fun a => by match a with | ⟨0, _⟩ => rfl | ⟨1, _⟩ => rfl

/-- A per-feature vector stretched to a row and then over the rows is read at the feature `o`. -/
theorem mean_at (i : S8192x4096.Idx) : idx_main_v1 (idx_main_v2 i) = ix1 (i 1) :=
  funext fun a => by match a with | ⟨0, _⟩ => rfl
theorem scale_at (i : S8192x4096.Idx) : idx_main_v4 (idx_main_v5 i) = ix1 (i 1) :=
  funext fun a => by match a with | ⟨0, _⟩ => rfl
theorem coef_at (i : S8192x4096.Idx) : idx_main_v11 (idx_main_v12 i) = ix1 (i 1) :=
  funext fun a => by match a with | ⟨0, _⟩ => rfl

/-- The reference's result, as a function of its five arguments, is `response`. -/
theorem result_eq (x : (⟨S8192x256, .f32⟩ : BufTy).Contents (Elt Ideal)) (e : (⟨S4096x256, .f32⟩ : BufTy).Contents (Elt Ideal))
    (μ σ c : (⟨S4096, .f32⟩ : BufTy).Contents (Elt Ideal)) :
    val_main_v13 (F := Ideal) x e μ σ c = response x e μ σ c := by
  funext i
  rw [val_main_v13_apply, val_main_v10_apply, val_main_v9_apply, val_main_v8_apply, val_main_v7_apply,
    val_main_cst_apply, val_main_v6_apply, val_main_v3_apply, val_main_v0_apply, val_main_v2_apply,
    val_main_v1_apply, val_main_v5_apply, val_main_v4_apply, val_main_v12_apply, val_main_v11_apply]
  simp only [lhs_at, rhs_at, mean_at, scale_at, coef_at, response, standardized, Ideal.mulf_def, Ideal.subf_def,
    Ideal.hostDivf_def, Ideal.hostUnary_exp_def, Ideal.ofBits_def]
  rfl

end Cert.Rbf.Reference

end
-- ==== Proof.BlockResponse.lean ====
/-
  What the kernel's body stores, read at an index (p, q) of its [1024, 1024] output block.

  The body loads a [1024, 256] block `u` of `x`, a [1024, 256] block `w` of the expansion matrix and one-row
  blocks `a`, `s`, `g` of the three per-feature vectors (each [1, 1024]). It contracts `u` and `w` over their
  shared axis of length 256 into a zero accumulator (the narrowing of both operands to bf16 is the identity
  on extended reals), stretches each one-row block over the 1024 rows, and applies the arithmetic of
  `response`. So at (p, q) it stores

      exp((−½ · z) · z) · g[0, q]      with  z = (Σ_k u[p, k] · w[q, k] − a[0, q]) / s[0, q].
-/
import proofs.«114944_j34462817583499_1_alg».proof.Proof.Gen.KernelIdeal.Skeleton
import proofs.«114944_j34462817583499_1_alg».proof.Proof.Response
import Idealize.ShloMosaic.Lib.ValueIdx
import Idealize.ShloMosaic.Lib.ValueLayout
import Idealize.ShloMosaic.Lib.Pipeline.Value
import Idealize.ShloMosaic.PureOps.Ideal.Laws

noncomputable section

namespace Cert.Rbf.Block

open Idealize.ShloMosaic Idealize.ShloMosaic.ValueIdx
open Cert.KernelIdeal Cert.KernelIdeal.Gen

/-! ## The contraction's operand indices, axis by axis -/

theorem lhs_row (i : S1024x1024.Idx) (r : dot_S1024x256_S1024x256_S1024x1024_1_1_0_0_n_n.contr.Idx) :
    (dot_S1024x256_S1024x256_S1024x1024_1_1_0_0_n_n.lhsIdx i r 0).val = (i 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
theorem lhs_contr (i : S1024x1024.Idx) (r : dot_S1024x256_S1024x256_S1024x1024_1_1_0_0_n_n.contr.Idx) :
    (dot_S1024x256_S1024x256_S1024x1024_1_1_0_0_n_n.lhsIdx i r 1).val = (r ⟨0, by decide⟩).val :=
  dot_S1024x256_S1024x256_S1024x1024_1_1_0_0_n_n.lhsIdx_val_of_single rfl i r
theorem rhs_row (i : S1024x1024.Idx) (r : dot_S1024x256_S1024x256_S1024x1024_1_1_0_0_n_n.contr.Idx) :
    (dot_S1024x256_S1024x256_S1024x1024_1_1_0_0_n_n.rhsIdx i r 0).val = (i 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
theorem rhs_contr (i : S1024x1024.Idx) (r : dot_S1024x256_S1024x256_S1024x1024_1_1_0_0_n_n.contr.Idx) :
    (dot_S1024x256_S1024x256_S1024x1024_1_1_0_0_n_n.rhsIdx i r 1).val = (r ⟨0, by decide⟩).val :=
  dot_S1024x256_S1024x256_S1024x1024_1_1_0_0_n_n.rhsIdx_val_of_single rfl i r

/-- The block contraction at (p, q) is row p of `u` against row q of `w`. -/
theorem contraction_apply (u w : Vec Ideal S1024x256 .f32) (p q : Fin 1024) :
    matmul dot_S1024x256_S1024x256_S1024x1024_1_1_0_0_n_n none (truncf .bf16 u bitsLt_bf16_f32) (truncf .bf16 w bitsLt_bf16_f32)
        (constant (F := Ideal) S1024x1024 .f32 0x00000000#32) (ix2 p q)
      = ∑ k : Fin 256, u (ix2 p k) * w (ix2 q k) := by
  simp only [matmul]
  rw [Ideal.matmul_constant_zero_apply, ← Equiv.sum_comp (contrEquiv1 dot_S1024x256_S1024x256_S1024x1024_1_1_0_0_n_n 256 rfl rfl).symm]
  refine Finset.sum_congr rfl fun k _ => ?_
  have hk := contrEquiv1_symm_val dot_S1024x256_S1024x256_S1024x1024_1_1_0_0_n_n 256 rfl rfl k
  have el : dot_S1024x256_S1024x256_S1024x1024_1_1_0_0_n_n.lhsIdx (ix2 p q) ((contrEquiv1 dot_S1024x256_S1024x256_S1024x1024_1_1_0_0_n_n 256 rfl rfl).symm k) = ix2 p k := funext fun a => Fin.ext (by
    match a with
    | ⟨0, _⟩ => exact lhs_row _ _
    | ⟨1, _⟩ => exact (lhs_contr _ _).trans hk)
  have er : dot_S1024x256_S1024x256_S1024x1024_1_1_0_0_n_n.rhsIdx (ix2 p q) ((contrEquiv1 dot_S1024x256_S1024x256_S1024x1024_1_1_0_0_n_n 256 rfl rfl).symm k) = ix2 q k := funext fun a => Fin.ext (by
    match a with
    | ⟨0, _⟩ => exact rhs_row _ _
    | ⟨1, _⟩ => exact (rhs_contr _ _).trans hk)
  rw [el, er]
  rfl

/-- The exponential of a vector is taken entry by entry. -/
theorem exp_at {s : Shape} (v : FVec Ideal s .f32) (i : s.Idx) : exp v i = Ideal.exp (v i) := rfl

/-- The stored value at (p, q). -/
theorem stored_apply (u w : Vec Ideal S1024x256 .f32) (a s g : Vec Ideal S1x1024 .f32) (p q : Fin 1024) :
    k0_pay1 (F := Ideal) u w a s g (ix2 p q)
      = Ideal.exp (Ideal.ofBits .f32 0xBF000000#32
            * Ideal.div ((∑ k : Fin 256, u (ix2 p k) * w (ix2 q k)) - a (ix2 (0 : Fin 1) q)) (s (ix2 (0 : Fin 1) q))
            * Ideal.div ((∑ k : Fin 256, u (ix2 p k) * w (ix2 q k)) - a (ix2 (0 : Fin 1) q)) (s (ix2 (0 : Fin 1) q)))
          * g (ix2 (0 : Fin 1) q) := by
  unfold k0_pay1
  simp only [mulf_apply, divf_apply, subf_apply, broadcast_apply, exp_at, contraction_apply,
    broadcastTo_1b_ab_apply, shapeCast_self]
  rfl

/-- A block of `response`. If `u` is rows `1024·I …` of `x`, `w` rows `1024·J …` of the expansion matrix, and
    `a`, `s`, `g` hold entries `1024·J …` of the three per-feature vectors, then what the body stores at (p, q)
    is `response` at (1024·I + p, 1024·J + q): the same arithmetic over the same entries. -/
theorem stored_eq_response (x : FVec Ideal ⟨2, ![8192, 256]⟩ .f32) (e : FVec Ideal ⟨2, ![4096, 256]⟩ .f32)
    (μ σ c : FVec Ideal ⟨1, ![4096]⟩ .f32)
    (u w : Vec Ideal S1024x256 .f32) (a s g : Vec Ideal S1x1024 .f32) (p q : Fin 1024) (b : Fin 8192) (o : Fin 4096)
    (hu : ∀ k : Fin 256, u (ix2 p k) = x (ix2 b k)) (hw : ∀ k : Fin 256, w (ix2 q k) = e (ix2 o k))
    (ha : a (ix2 (0 : Fin 1) q) = μ (ix1 o)) (hs : s (ix2 (0 : Fin 1) q) = σ (ix1 o)) (hg : g (ix2 (0 : Fin 1) q) = c (ix1 o)) :
    k0_pay1 (F := Ideal) u w a s g (ix2 p q) = Cert.Rbf.response x e μ σ c (ix2 b o) := by
  rw [stored_apply]
  simp only [hu, hw, ha, hs, hg]
  rfl

end Cert.Rbf.Block

end
-- ==== Proof.WholeArray.lean ====
/-
  From the blocks to the whole array.

  The launch runs the body at the 8 × 4 = 32 points (I, J) of its grid. At point (I, J) the body sees rows
  1024·I … 1024·I + 1023 of `x`, rows 1024·J … 1024·J + 1023 of the expansion matrix, entries
  1024·J … 1024·J + 1023 of the three per-feature vectors (each passed as one row [1, 4096], the vector itself
  with a unit axis in front), and writes the [1024, 1024] block (I, J) of the result. So the block it writes is
  block (I, J) of `response`; the 32 blocks tile the [8192, 4096] result (the block holding (b, o) is
  (b / 1024, o / 1024)); hence after the run the result array is `response` of the arguments.
-/
import proofs.«114944_j34462817583499_1_alg».proof.Proof.Gen.KernelIdeal.Value
import proofs.«114944_j34462817583499_1_alg».proof.Proof.BlockResponse
import Idealize.ShloMosaic.Lib.Pipeline.Value
import Idealize.ShloMosaic.Lib.ValueLayout
import Idealize.ShloMosaic.Lib.StableHlo.Run
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.Rbf.Kernel

open Cert.KernelIdeal Cert.KernelIdeal.Gen Cert.KernelIdeal.Value

variable (m : (ℓ : Loc nD τ sig) → Buf (Elt Ideal) ℓ) (ρ : Dev nD → PrngReg)

theorem origin : (![0, 0] : Fin 2 → Nat) = fun _ => 0 := funext fun a => by fin_cases a <;> rfl

/-! ## The three per-feature rows as the launch finds them -/

/-- The row the launch finds for the means is the argument vector with a unit axis in front. -/
theorem mean_row (c : Dev nD) :
    (V m c main_v0 : S1x4096.Idx → EReal) = shapeCast S1x4096 (m ((c : Thread nD τ).loc main_arg2)) shapeCasts_S4096_S1x4096 := by
  dsimp only [Gen.V, Gen.hostOps0]
  after_results
  rfl

/-- The same for the scales. -/
theorem scale_row (c : Dev nD) :
    (V m c main_v1 : S1x4096.Idx → EReal) = shapeCast S1x4096 (m ((c : Thread nD τ).loc main_arg3)) shapeCasts_S4096_S1x4096 := by
  dsimp only [Gen.V, Gen.hostOps0]
  after_results
  rfl

/-- The same for the coefficients. -/
theorem coef_row (c : Dev nD) :
    (V m c main_v2 : S1x4096.Idx → EReal) = shapeCast S1x4096 (m ((c : Thread nD τ).loc main_arg4)) shapeCasts_S4096_S1x4096 := by
  dsimp only [Gen.V, Gen.hostOps0]
  after_results
  rfl

/-! ## The index maps over the grid -/

/-- How the six index maps move over the grid, decided at its 32 points: the block of `x` follows the result's
    row block, the block of the expansion matrix and the three one-row blocks follow its column block. -/
theorem index_facts : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = 0 ∧ win0_2.index t (1 : Fin 2) = win0_5.index t (1 : Fin 2)
    ∧ win0_3.index t (0 : Fin 2) = 0 ∧ win0_3.index t (1 : Fin 2) = win0_5.index t (1 : Fin 2)
    ∧ win0_4.index t (0 : Fin 2) = 0 ∧ win0_4.index t (1 : Fin 2) = win0_5.index t (1 : Fin 2)
    ∧ win0_5.index t (0 : Fin 2) ≤ 7 ∧ win0_5.index t (1 : Fin 2) ≤ 3 :=
  (by decide +kernel : ∀ t : Fin grid0.N, _)

/-- Every block (I, J) of the result is some point's. -/
theorem index_onto : ∀ (I : Fin 8) (J : Fin 4), ∃ t : Fin cfg0.N, win0_5.index t = ![I.val, J.val] :=
  (by decide +kernel : ∀ (I : Fin 8) (J : Fin 4), ∃ t : Fin grid0.N, win0_5.index t = ![I.val, J.val])

/-! ## Each input block as entries of an argument -/

/-- The block of `x` at point `t`, entry (p, k), is `x` at row 1024·I + p. -/
theorem x_block (c : Dev nD) (t : Fin cfg0.N) (p : Fin 1024) (k : Fin 256) (b : Fin 8192)
    (hb : b.val = win0_5.index t (0 : Fin 2) * 1024 + p.val) :
    (iblk m c 0 t : Vec Ideal S1024x256 .f32) (ix2 p k) = (m ((c : Thread nD τ).loc main_arg0) : S8192x256.Idx → EReal) (ix2 b k) := by
  obtain ⟨e0, e1, -⟩ := index_facts t
  unfold iblk
  rw [View.read_apply]
  show V m c main_arg0 _ = _
  rw [V_main_arg0]
  congr 1
  funext a
  apply Fin.ext
  match a with
  | ⟨0, _⟩ => show win0_0.index t (0 : Fin 2) * 1024 + 1 * p.val = b.val; omega
  | ⟨1, _⟩ => show win0_0.index t (1 : Fin 2) * 256 + 1 * k.val = k.val; omega

/-- The block of the expansion matrix at point `t`, entry (q, k), is the matrix at row 1024·J + q. -/
theorem e_block (c : Dev nD) (t : Fin cfg0.N) (q : Fin 1024) (k : Fin 256) (o : Fin 4096)
    (ho : o.val = win0_5.index t (1 : Fin 2) * 1024 + q.val) :
    (iblk m c 1 t : Vec Ideal S1024x256 .f32) (ix2 q k) = (m ((c : Thread nD τ).loc main_arg1) : S4096x256.Idx → EReal) (ix2 o k) := by
  obtain ⟨-, -, e2, e3, -⟩ := index_facts t
  unfold iblk
  rw [View.read_apply]
  show V m c main_arg1 _ = _
  rw [V_main_arg1]
  congr 1
  funext a
  apply Fin.ext
  match a with
  | ⟨0, _⟩ => show win0_1.index t (0 : Fin 2) * 1024 + 1 * q.val = o.val; omega
  | ⟨1, _⟩ => show win0_1.index t (1 : Fin 2) * 256 + 1 * k.val = k.val; omega

/-- The one-row block of the means at point \`t\`, entry q, is the mean of feature 1024·J + q. -/
theorem mean_block (c : Dev nD) (t : Fin cfg0.N) (q : Fin 1024) (o : Fin 4096)
    (ho : o.val = win0_5.index t (1 : Fin 2) * 1024 + q.val) :
    (iblk m c 2 t : Vec Ideal S1x1024 .f32) (ix2 (0 : Fin 1) q) = (m ((c : Thread nD τ).loc main_arg2) : S4096.Idx → EReal) (ix1 o) := by
  obtain ⟨-, -, -, -, e4, e5, -⟩ := index_facts t
  unfold iblk
  rw [View.read_apply]
  show V m c main_v0 _ = _
  rw [mean_row m c]
  have hi : ((cfg0.win 2).blk t).view.emb (ix2 (0 : Fin 1) q) = ix2 (0 : Fin 1) o := by
    funext a
    apply Fin.ext
    match a with
    | ⟨0, _⟩ => show win0_2.index t (0 : Fin 2) * 1 + 1 * 0 = 0; omega
    | ⟨1, _⟩ => show win0_2.index t (1 : Fin 2) * 1024 + 1 * q.val = o.val; omega
  rw [hi, shapeCast_a_1a_apply]

/-- The same for the scales. -/
theorem scale_block (c : Dev nD) (t : Fin cfg0.N) (q : Fin 1024) (o : Fin 4096)
    (ho : o.val = win0_5.index t (1 : Fin 2) * 1024 + q.val) :
    (iblk m c 3 t : Vec Ideal S1x1024 .f32) (ix2 (0 : Fin 1) q) = (m ((c : Thread nD τ).loc main_arg3) : S4096.Idx → EReal) (ix1 o) := by
  obtain ⟨-, -, -, -, -, -, e4, e5, -⟩ := index_facts t
  unfold iblk
  rw [View.read_apply]
  show V m c main_v1 _ = _
  rw [scale_row m c]
  have hi : ((cfg0.win 3).blk t).view.emb (ix2 (0 : Fin 1) q) = ix2 (0 : Fin 1) o := by
    funext a
    apply Fin.ext
    match a with
    | ⟨0, _⟩ => show win0_3.index t (0 : Fin 2) * 1 + 1 * 0 = 0; omega
    | ⟨1, _⟩ => show win0_3.index t (1 : Fin 2) * 1024 + 1 * q.val = o.val; omega
  rw [hi, shapeCast_a_1a_apply]

/-- The same for the coefficients. -/
theorem coef_block (c : Dev nD) (t : Fin cfg0.N) (q : Fin 1024) (o : Fin 4096)
    (ho : o.val = win0_5.index t (1 : Fin 2) * 1024 + q.val) :
    (iblk m c 4 t : Vec Ideal S1x1024 .f32) (ix2 (0 : Fin 1) q) = (m ((c : Thread nD τ).loc main_arg4) : S4096.Idx → EReal) (ix1 o) := by
  obtain ⟨-, -, -, -, -, -, -, -, e4, e5, -⟩ := index_facts t
  unfold iblk
  rw [View.read_apply]
  show V m c main_v2 _ = _
  rw [coef_row m c]
  have hi : ((cfg0.win 4).blk t).view.emb (ix2 (0 : Fin 1) q) = ix2 (0 : Fin 1) o := by
    funext a
    apply Fin.ext
    match a with
    | ⟨0, _⟩ => show win0_4.index t (0 : Fin 2) * 1 + 1 * 0 = 0; omega
    | ⟨1, _⟩ => show win0_4.index t (1 : Fin 2) * 1024 + 1 * q.val = o.val; omega
  rw [hi, shapeCast_a_1a_apply]

/-! ## What a point writes back, the cover, the array -/

/-- The result: `response` of the five arguments as launched. -/
abbrev result (c : Dev nD) : FVec Ideal ⟨2, ![8192, 4096]⟩ .f32 :=
  Cert.Rbf.response (m ((c : Thread nD τ).loc main_arg0)) (m ((c : Thread nD τ).loc main_arg1))
    (m ((c : Thread nD τ).loc main_arg2)) (m ((c : Thread nD τ).loc main_arg3)) (m ((c : Thread nD τ).loc main_arg4))

/-- What point `t` writes back is block `t` of `result`. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero origin]
  simp only [View.ld_unit_zero (S := S1024x256) origin, View.ld_unit_zero (S := S1x1024) origin]
  funext j
  obtain ⟨p, q, rfl⟩ : ∃ (p q : Fin 1024), j = ix2 p q := ⟨j 0, j 1, eq_ix2 j⟩
  obtain ⟨-, -, -, -, -, -, -, -, -, -, hI, hJ⟩ := index_facts t
  rw [View.read_apply]
  have hemb : ((cfg0.win 5).blk t).view.emb (ix2 p q)
      = ix2 (⟨win0_5.index t (0 : Fin 2) * 1024 + p.val, by have := p.isLt; omega⟩ : Fin 8192)
          (⟨win0_5.index t (1 : Fin 2) * 1024 + q.val, by have := q.isLt; omega⟩ : Fin 4096) := by
    funext a
    apply Fin.ext
    match a with
    | ⟨0, _⟩ => show win0_5.index t (0 : Fin 2) * 1024 + 1 * p.val = win0_5.index t (0 : Fin 2) * 1024 + p.val; omega
    | ⟨1, _⟩ => show win0_5.index t (1 : Fin 2) * 1024 + 1 * q.val = win0_5.index t (1 : Fin 2) * 1024 + q.val; omega
  rw [hemb]
  exact Cert.Rbf.Block.stored_eq_response
    (m ((c : Thread nD τ).loc main_arg0)) (m ((c : Thread nD τ).loc main_arg1))
    (m ((c : Thread nD τ).loc main_arg2)) (m ((c : Thread nD τ).loc main_arg3)) (m ((c : Thread nD τ).loc main_arg4))
    (iblk m c 0 t) (iblk m c 1 t) (iblk m c 2 t) (iblk m c 3 t) (iblk m c 4 t) p q _ _
    (fun k => x_block m c t p k _ rfl) (fun k => e_block m c t q k _ rfl)
    (mean_block m c t q _ rfl) (scale_block m c t q _ rfl) (coef_block m c t q _ rfl)

/-- An index of the result is in point `t`'s block iff each coordinate is in the block's range on its axis. -/
theorem mem_block (t : Fin cfg0.N) (i : S8192x4096.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v3).slice (win0_5.rect t)).set ↔ _
  rw [View.set_slice_whole, Rect.mem_set_unit]
  exact Iff.rfl

/-- The 32 blocks cover the result: (b, o) lies in block (b / 1024, o / 1024). -/
theorem covered (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  obtain ⟨t, ht⟩ := index_onto ⟨(i 0).val / 1024, by omega⟩ ⟨(i 1).val / 1024, by omega⟩
  have q0 : win0_5.index t (0 : Fin 2) = (i 0).val / 1024 := congrFun ht 0
  have q1 : win0_5.index t (1 : Fin 2) = (i 1).val / 1024 := congrFun ht 1
  refine ⟨t, flush0_5 t, ?_⟩
  rw [mem_block]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 1024 ≤ (i 1).val ∧ (i 1).val < win0_5.index t (1 : Fin 2) * 1024 + 1024; omega

/-- So after the run the result array is `result`. -/
theorem final (c : Dev nD) : (dats m 0 c).arrAt 5 cfg0.N = result m c :=
  (dats m 0 c).arrAt_eq_of_cover 5 (result m c) (fun t _ => flushed_eq m c t) covered

/-- The run, read: the result array at `response` of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

end Cert.Rbf.Kernel

end
-- ==== Proof.lean ====
/-
  A radial-basis layer: the blocked kernel against its plain reference, equal as functions over the extended reals.

  Both programs take `x` [8192, 256], an expansion matrix `e` [4096, 256] and three per-feature vectors
  `μ`, `σ`, `c` of length 4096, and return the [8192, 4096] array

      r(b, o) = exp((−½ · z(b, o)) · z(b, o)) · c[o],    z(b, o) = (Σ_{k < 256} x[b, k] · e[o, k] − μ[o]) / σ[o]

  (`Cert.Rbf.response`). The reference computes it by one contraction and elementwise host operations over the
  whole arrays (`Cert.Rbf.Reference.result_eq`). The kernel computes it block by block on an 8 × 4 grid: at each
  point one contraction of a [1024, 256] block of `x` with a [1024, 256] block of `e` into a zero accumulator — its
  operands narrowed to bf16, which is the identity on extended reals — then the same arithmetic over one-row blocks
  of the vectors (`Cert.Rbf.Block.stored_eq_response`); the 32 blocks tile the result (`Cert.Rbf.Kernel.run`).
  The two sides agree entry by entry with no algebra beyond regrouping the sum over `k`, so finiteness of the
  inputs is never used. The idealization rewrote nothing, so `preserves` is trivial; the frames are the generated
  frame runs, the reference's being its run with the result dropped.
-/
import proofs.«114944_j34462817583499_1_alg».proof.Defs
import proofs.«114944_j34462817583499_1_alg».proof.Proof.Gen.Kernel
import proofs.«114944_j34462817583499_1_alg».proof.Proof.Gen.Kernel.Skeleton
import proofs.«114944_j34462817583499_1_alg».proof.Proof.Gen.Kernel.Launch
import proofs.«114944_j34462817583499_1_alg».proof.Proof.Gen.Kernel.Points
import proofs.«114944_j34462817583499_1_alg».proof.Proof.Gen.Kernel.Frame
import proofs.«114944_j34462817583499_1_alg».proof.Proof.Gen.KernelIdeal
import proofs.«114944_j34462817583499_1_alg».proof.Proof.Gen.KernelIdeal.Skeleton
import proofs.«114944_j34462817583499_1_alg».proof.Proof.Gen.KernelIdeal.Launch
import proofs.«114944_j34462817583499_1_alg».proof.Proof.Gen.KernelIdeal.Points
import proofs.«114944_j34462817583499_1_alg».proof.Proof.Gen.KernelIdeal.Frame
import proofs.«114944_j34462817583499_1_alg».proof.Proof.Gen.ReferenceIdeal
import proofs.«114944_j34462817583499_1_alg».proof.Proof.Gen.Pre_finite_inputs
import proofs.«114944_j34462817583499_1_alg».proof.Proof.Gen.KernelIdeal.Value
import proofs.«114944_j34462817583499_1_alg».proof.Proof.Gen.ReferenceIdeal.Run
import proofs.«114944_j34462817583499_1_alg».proof.Proof.Gen.ReferenceIdeal.Read
import proofs.«114944_j34462817583499_1_alg».proof.Proof.Response
import proofs.«114944_j34462817583499_1_alg».proof.Proof.RefResponse
import proofs.«114944_j34462817583499_1_alg».proof.Proof.BlockResponse
import proofs.«114944_j34462817583499_1_alg».proof.Proof.WholeArray
import Idealize.ShloMosaic.Adequacy
import Idealize.ShloMosaic.Init

noncomputable section

namespace Cert.Proof

open Idealize.ShloMosaic Idealize.SL.Sem

/-- The kernel as printed runs and leaves its arguments as they were. -/
theorem frame_kernel [Cert.Kernel.Facts] [Cert.Pre_finite_inputs.Facts] : Cert.frame_Kernel :=
  fun m ρ _ => Cert.Kernel.Gen.frame m ρ

/-- So does its reading over the extended reals. -/
theorem frame_kernel_ideal [Cert.KernelIdeal.Facts] [Cert.Pre_finite_inputs.Facts] : Cert.frame_KernelIdeal :=
  fun m ρ _ => Cert.KernelIdeal.Gen.frame m ρ

/-- The reference runs and leaves its arguments as they were: its run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories that agree on the five arguments both programs end with `response` of them in the result. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Rbf.Kernel.result m c, Cert.Rbf.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.Rbf.Reference.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
